-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S8192x2048 : Shape := ⟨2, ![8192, 2048]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S8192x2048 : S_.BroadcastsInDim S8192x2048 (![] : Fin 0 → Fin S8192x2048.rank)
  reducesTo_S8192x2048_S_d0_1 : S8192x2048.ReducesTo [0, 1] S_

variable [Facts]

def fn {F : FTy → Type} [FloatOps F] (main_arg0 : FVec F S4x2048x2048 .f32) (main_arg1 : FVec F S8192x2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  main_v8
-- ==== Kernel.lean ====
abbrev S4x2048x2048 : Shape := ⟨3, ![4, 2048, 2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩
abbrev S2048x2048 : Shape := ⟨2, ![2048, 2048]⟩
abbrev S256x2048 : Shape := ⟨2, ![256, 2048]⟩
abbrev S256x1 : Shape := ⟨2, ![256, 1]⟩
abbrev S2048x256 : Shape := ⟨2, ![2048, 256]⟩
abbrev S4x2048x8192 : Shape := ⟨3, ![4, 2048, 8192]⟩

abbrev nBuf : Space → Nat
  | .hbm => 17
  | .vmem => 8
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .bf16⟩
  | .hbm, ⟨15, _⟩ => ⟨S8192x8192, .f32⟩
  | .hbm, ⟨16, _⟩ => ⟨S4x2048x8192, .f32⟩
  | .local _ .vmem, ⟨0, _⟩ => ⟨S2048x2048, .bf16⟩
  | .local _ .vmem, ⟨1, _⟩ => ⟨S2048x2048, .bf16⟩
  | .local _ .vmem, ⟨2, _⟩ => ⟨S256x2048, .f32⟩
  | .local _ .vmem, ⟨3, _⟩ => ⟨S256x2048, .f32⟩
  | .local _ .vmem, ⟨4, _⟩ => ⟨S256x1, .f32⟩
  | .local _ .vmem, ⟨5, _⟩ => ⟨S256x1, .f32⟩
  | .local _ .vmem, ⟨6, _⟩ => ⟨S2048x256, .f32⟩
  | .local _ .vmem, ⟨7, _⟩ => ⟨S2048x256, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  reducesTo_S8192x2048_S8192_d1 : S8192x2048.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  shapeCasts_S4x2048x2048_S8192x2048 : S4x2048x2048.ShapeCasts S8192x2048
  bitsLt_bf16_f32 : FTy.bits .bf16 < FTy.bits .f32
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S256x2048_S256x2048_0_0 : ∀ a, (![0, 0] : Fin 2 → Nat) a + S256x2048.size a ≤ S256x2048.size a
  h_S256x2048 : 0 < S256x2048.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x2048 : S256x1.Broadcasts S256x2048
  inb_S2048x256_S2048x256_0_0 : ∀ a, (![0, 0] : Fin 2 → Nat) a + S2048x256.size a ≤ S2048x256.size a
  h_S2048x256 : 0 < S2048x256.numel
  shapeCasts_S8192x8192_S4x2048x8192 : S8192x8192.ShapeCasts S4x2048x8192
  dot_S2048x2048_S256x2048_S2048x256_1_1_0_0_n_n_wf : DotDims.WF S2048x2048 S256x2048 S2048x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S8192x2048.size a
  hwx0_0 : ∀ i : grid0.Coords, EltTy.bits .bf16 = 32 ∨ (Rect.block (s := S8192x2048) S2048x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S8192x2048.size a
  hwx0_1 : ∀ i : grid0.Coords, EltTy.bits .f32 = 32 ∨ (Rect.block (s := S8192x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S8192x1.size a
  hwx0_2 : ∀ i : grid0.Coords, EltTy.bits .f32 = 32 ∨ (Rect.block (s := S8192x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S8192x8192.size a
  hwx0_3 : ∀ i : grid0.Coords, EltTy.bits .f32 = 32 ∨ (Rect.block (s := S8192x8192) S2048x256.size (cc0_transform_3 i) (hinb0_3 i)).WholeWords (EltTy.packing .f32)

variable [Facts₀]

def dot_S2048x2048_S256x2048_S2048x256_1_1_0_0_n_n : DotDims S2048x2048 S256x2048 S2048x256 where
  lhsContracting := [1]
  rhsContracting := [1]
  lhsNonContracting := [0]
  rhsNonContracting := [0]
  lhsBatch := []
  rhsBatch := []
  wf := dot_S2048x2048_S256x2048_S2048x256_1_1_0_0_n_n_wf

abbrev win0_0 : Pipeline.Window sig grid0 :=
  Pipeline.Window.ofSpec (Memref.whole main_v7) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x2048 : Shape := ⟨3, ![4, 2048, 2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S4x2048x8192 : Shape := ⟨3, ![4, 2048, 8192]⟩

abbrev nBuf : Space → Nat
  | .hbm => 29
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S4x2048x8192, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_cst_3 : Ref sig .tc := ⟨.hbm, 17, rfl⟩
abbrev main_call2_v0 : Ref sig .tc := ⟨.hbm, 18, rfl⟩
abbrev main_call2_v1 : Ref sig .tc := ⟨.hbm, 19, rfl⟩
abbrev main_call2_v2 : Ref sig .tc := ⟨.hbm, 20, rfl⟩
abbrev main_call2_v3 : Ref sig .tc := ⟨.hbm, 21, rfl⟩
abbrev main_call2_v4 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩

abbrev nD : Nat := 1
abbrev τ : Topo := Topo.v7x

variable {F : FTy → Type} [FloatOps F]

class Facts₀ : Prop where
  reducesTo_S8192x2048_S8192_d1 : S8192x2048.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x2048_0_1 : S8192x1.BroadcastsInDim S8192x2048 (![0, 1] : Fin 2 → Fin S8192x2048.rank)
  bcast_S_S8192x2048 : S_.BroadcastsInDim S8192x2048 (![] : Fin 0 → Fin S8192x2048.rank)
  dot_S4x2048x2048_S8192x2048_S4x2048x8192_2_1_01_0_n_n_wf : DotDims.WF S4x2048x2048 S8192x2048 S4x2048x8192 [2] [1] [0, 1] [0] [] []

variable [Facts₀]

def dot_S4x2048x2048_S8192x2048_S4x2048x8192_2_1_01_0_n_n : DotDims S4x2048x2048 S8192x2048 S4x2048x8192 where
  lhsContracting := [2]
  rhsContracting := [1]
  lhsNonContracting := [0, 1]
  rhsNonContracting := [0]
  lhsBatch := []
  rhsBatch := []
  wf := dot_S4x2048x2048_S8192x2048_S4x2048x8192_2_1_01_0_n_n_wf

class Facts : Prop extends Facts₀ where

variable [Facts]
-- ==== Proof.Ternary.lean ====
/-
  Ternary-weight linear layer: the mathematics both programs compute.

  A weight entry w with its row's scale s is quantized to q(w, s) = clamp(round(w / s), -1, 1) * s, where the rounding is
  to nearest with ties to even and the clamp is min(1, max(-1, ·)). The layer's output at (b, r, n) is the inner product
  over k of x(b, r, k) with q(w(n, k), s(n)).

  One program multiplies x by q(w, s) directly; the other first forms w + (q(w, s) - w). On the extended reals
  a + (b - a) = b whenever a is a real number (it fails only at a = ±∞), so with finite weights the two agree entry by
  entry, and the inner products are then the same sums.
-/
import Idealize.ShloMosaic.Lib.ValueIdx
import Idealize.ShloMosaic.PureOps.Ideal.Laws

noncomputable section

open scoped BigOperators

namespace Cert.Ternary

open Idealize.ShloMosaic Idealize.ShloMosaic.ValueIdx

/-- The quantized weight entry scaled back: clamp(round(w / s), -1, 1) * s. The words are f32's 1.0 and -1.0. -/
def q (w s : EReal) : EReal :=
  min (Ideal.ofBits .f32 0x3F800000#32)
    (max (Ideal.ofBits .f32 0xBF800000#32) (Ideal.liftRound Ideal.roundHalfEven (Ideal.div w s))) * s

/-- The layer's output: at (b, r, n), the sum over k of x(b, r, k) * q(w(n, k), s(n, 0)). -/
def out (x : (⟨3, ![4, 2048, 2048]⟩ : Shape).Idx → EReal) (w : (⟨2, ![8192, 2048]⟩ : Shape).Idx → EReal)
    (s : (⟨2, ![8192, 1]⟩ : Shape).Idx → EReal) : (⟨3, ![4, 2048, 8192]⟩ : Shape).Idx → EReal :=
  fun i => ∑ k : Fin 2048, x (ix3 (i 0) (i 1) k) * q (w (ix2 (i 2) k)) (s (ix2 (i 2) (0 : Fin 1)))

/-- The same output with the two leading axes of x flattened into one of 8192 rows: at (r, n), the sum over k of
    X(r, k) * q(w(n, k), s(n, 0)). -/
def flat (X : (⟨2, ![8192, 2048]⟩ : Shape).Idx → EReal) (w : (⟨2, ![8192, 2048]⟩ : Shape).Idx → EReal)
    (s : (⟨2, ![8192, 1]⟩ : Shape).Idx → EReal) : (⟨2, ![8192, 8192]⟩ : Shape).Idx → EReal :=
  fun i => ∑ k : Fin 2048, X (ix2 (i 0) k) * q (w (ix2 (i 1) k)) (s (ix2 (i 1) (0 : Fin 1)))

/-- The output read at coordinates. -/
theorem out_apply (x : (⟨3, ![4, 2048, 2048]⟩ : Shape).Idx → EReal) (w : (⟨2, ![8192, 2048]⟩ : Shape).Idx → EReal)
    (s : (⟨2, ![8192, 1]⟩ : Shape).Idx → EReal) (b : Fin 4) (r : Fin 2048) (n : Fin 8192) :
    out x w s (ix3 b r n) = ∑ k : Fin 2048, x (ix3 b r k) * q (w (ix2 n k)) (s (ix2 n (0 : Fin 1))) := rfl

/-- The flat output read at coordinates. -/
theorem flat_apply (X : (⟨2, ![8192, 2048]⟩ : Shape).Idx → EReal) (w : (⟨2, ![8192, 2048]⟩ : Shape).Idx → EReal)
    (s : (⟨2, ![8192, 1]⟩ : Shape).Idx → EReal) (r : Fin 8192) (n : Fin 8192) :
    flat X w s (ix2 r n) = ∑ k : Fin 2048, X (ix2 r k) * q (w (ix2 n k)) (s (ix2 n (0 : Fin 1))) := rfl

/-- Adding back what was subtracted: for a real a and any extended real b, a + (b - a) = b. -/
theorem add_sub_cancel_real (a : ℝ) (b : EReal) : (a : EReal) + (b - (a : EReal)) = b := by
  induction b using EReal.rec with
  | bot => simp
  | coe b => norm_cast; ring
  | top => simp

/-- The same for an entry known to be neither infinity. -/
theorem add_sub_cancel_of_finite {a : EReal} (hb : a ≠ ⊥) (ht : a ≠ ⊤) (b : EReal) : a + (b - a) = b := by
  lift a to ℝ using ⟨ht, hb⟩
  exact add_sub_cancel_real a b

end Cert.Ternary

end
-- ==== Proof.LibKeepdims.lean ====
/-
  Keepdims layouts and last-axis reductions of a matrix, read at indices written by coordinates.

  A sum or maximum taken with the reduced axis kept prints as a reduction to a vector [a], a cast of that vector to a
  column [a, 1], and a broadcast of the column across [a, b]. Read at (p, c), the column is the vector at p and the
  broadcast is the column at p; a vector [n] viewed as [1, 1, n] keeps its entries. A reduction of a matrix [a, b]
  over its last axis reads, at row p, the entries (p, k) for every k: a float sum is their sum, a float maximum from
  −∞ is their maximum folded from −∞. The words of −∞ and of 1.0 denote −∞ and 1.
  Every statement is generic in the extents.
-/
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- A vector [a] cast to a column [a, 1] reads, at (p, u), the vector at p. -/
theorem cast_vec_col {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] broadcast to [a, b] reads, at (p, c), the column at p. -/
theorem bcast_col {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [n] cast to [1, 1, n] reads, at (u, u', j), the vector at j. -/
theorem cast_vec_11n {n : ℕ} (x : (⟨1, ![n]⟩ : Shape).Idx → α) (h : (⟨1, ![n]⟩ : Shape).ShapeCasts ⟨3, ![1, 1, n]⟩)
    (u u' : Fin 1) (j : Fin n) : shapeCast ⟨3, ![1, 1, n]⟩ x h (ix3 u u' j) = x (ix1 j) :=
  shapeCast_apply x h _ _ (by
    have hu : u.val = 0 := by omega
    have hu' : u'.val = 0 := by omega
    rw [Shape.rowMajor_val_three, Shape.rowMajor_val_one]
    show j.val = (u.val * 1 + u'.val) * n + j.val
    rw [hu, hu']
    simp)

/-- Over row p of a matrix, the index a last-axis reduction inserts coordinate k into is (p, k). -/
theorem lift_row {a b : ℕ} (h : (⟨2, ![a, b]⟩ : Shape).Reduces [1] ⟨1, ![a]⟩) (p : Fin a) (k : Fin b) :
    h.lift (ix1 p) k = ix2 p k :=
  funext fun c => Fin.ext (match c with | ⟨0, _⟩ => rfl | ⟨1, _⟩ => rfl)

/-- A float sum of a matrix over its last axis, at row p, is the sum of that row. -/
theorem sum_row {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src (lift_row h p k))

/-- The word of f32's −∞ denotes −∞. -/
theorem ofBits_neg_inf : Ideal.ofBits .f32 0xFF800000#32 = (⊥ : EReal) := by simp [Ideal.ofBits, Ideal.ieee]

/-- The word of f32's 1.0 denotes 1. -/
theorem ofBits_one_f32 : Ideal.ofBits .f32 0x3F800000#32 = (1 : EReal) :=
  IdealRules.sign_bit.ideal_onePat .f32

/-- The word of bf16's 1.0 denotes 1. -/
theorem ofBits_one_bf16 : Ideal.ofBits .bf16 0x3F80#16 = (1 : EReal) :=
  IdealRules.sign_bit.ideal_onePat .bf16

/-- A float maximum of a matrix over its last axis from −∞, at row p, is the maximum of that row from −∞. -/
theorem max_row {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max ⊥ (fun k => src (ix2 p k)) := by
  refine (Ideal.multiReduction_maximumf_single src _ h hφ hacc (ix1 p)).trans ?_
  show (Finset.univ : Finset (Fin b)).fold max (Ideal.ofBits .f32 0xFF800000#32) (src ∘ h.lift (ix1 p)) = _
  rw [ofBits_neg_inf]
  exact congrArg (fun g : Fin b → EReal => (Finset.univ : Finset (Fin b)).fold max ⊥ g)
    (funext fun k => congrArg src (lift_row h p k))

end Cert.LibKeepdims

end
-- ==== Proof.BodyValue.lean ====
/-
  What the kernel body stores, read at an index.

  The body loads a block x of activations (2048 rows by 2048), a block w of weights (256 rows by 2048) and the column s
  of those rows' scales (256 by 1), quantizes every weight entry against its row's scale, and stores the product of x
  with the transpose of the quantized block into an accumulator of zeros. So the stored entry (p, q) is the sum over k
  of x(p, k) * q(w(q, k), s(q, 0)): the contraction runs over the second axis of both operands, the column of scales is
  read across its row, and the narrowing of the quantized block to a shorter float format changes nothing over the
  extended reals.
-/
import proofs.«104891_j9526237462629_1_alg».proof.Proof.Gen.KernelIdeal.Skeleton
import proofs.«104891_j9526237462629_1_alg».proof.Proof.Ternary
import proofs.«104891_j9526237462629_1_alg».proof.Proof.LibKeepdims
import Idealize.ShloMosaic.Lib.Pipeline.Value
import Idealize.ShloMosaic.Lib.ValueIdx
import Idealize.ShloMosaic.PureOps.Ideal.Laws

noncomputable section

open scoped BigOperators

namespace Cert.KernelIdeal.BodyValue

open Cert.KernelIdeal Cert.KernelIdeal.Gen Idealize.ShloMosaic Idealize.ShloMosaic.ValueIdx

/-- The left operand is read at the output's row, -/
theorem lhs_row (i : S2048x256.Idx) (c : dot_S2048x2048_S256x2048_S2048x256_1_1_0_0_n_n.contr.Idx) :
    (dot_S2048x2048_S256x2048_S2048x256_1_1_0_0_n_n.lhsIdx i c 0).val = (i 0).val := by
  unfold DotDims.lhsIdx
  rw [dif_neg (show ¬(0 : Fin S2048x2048.rank) ∈ dot_S2048x2048_S256x2048_S2048x256_1_1_0_0_n_n.lhsBatch by decide), dif_pos (show (0 : Fin S2048x2048.rank) ∈ dot_S2048x2048_S256x2048_S2048x256_1_1_0_0_n_n.lhsNonContracting by decide)]
  rfl
/-- and at the contraction's coordinate. -/
theorem lhs_contr (i : S2048x256.Idx) (c : dot_S2048x2048_S256x2048_S2048x256_1_1_0_0_n_n.contr.Idx) :
    (dot_S2048x2048_S256x2048_S2048x256_1_1_0_0_n_n.lhsIdx i c 1).val = (c ⟨0, by decide⟩).val :=
  dot_S2048x2048_S256x2048_S2048x256_1_1_0_0_n_n.lhsIdx_val_of_single rfl i c
/-- The right operand is read at the output's column, which is a ROW of the weight block, -/
theorem rhs_row (i : S2048x256.Idx) (c : dot_S2048x2048_S256x2048_S2048x256_1_1_0_0_n_n.contr.Idx) :
    (dot_S2048x2048_S256x2048_S2048x256_1_1_0_0_n_n.rhsIdx i c 0).val = (i 1).val := by
  unfold DotDims.rhsIdx
  rw [dif_neg (show ¬(0 : Fin S256x2048.rank) ∈ dot_S2048x2048_S256x2048_S2048x256_1_1_0_0_n_n.rhsBatch by decide), dif_pos (show (0 : Fin S256x2048.rank) ∈ dot_S2048x2048_S256x2048_S2048x256_1_1_0_0_n_n.rhsNonContracting by decide)]
  rfl
/-- and at the contraction's coordinate. -/
theorem rhs_contr (i : S2048x256.Idx) (c : dot_S2048x2048_S256x2048_S2048x256_1_1_0_0_n_n.contr.Idx) :
    (dot_S2048x2048_S256x2048_S2048x256_1_1_0_0_n_n.rhsIdx i c 1).val = (c ⟨0, by decide⟩).val :=
  dot_S2048x2048_S256x2048_S2048x256_1_1_0_0_n_n.rhsIdx_val_of_single rfl i c

/-- The stored entry (p, q): the inner product of row p of the activations with the quantized row q of the weights. -/
theorem pay_apply (x0 : Vec Ideal S2048x2048 .bf16) (x1 : Vec Ideal S256x2048 .f32) (x2 : Vec Ideal S256x1 .f32)
    (p : Fin 2048) (q : Fin 256) :
    k0_pay1 (F := Ideal) x0 x1 x2 (ix2 p q)
      = ∑ k : Fin 2048, x0 (ix2 p k) * Ternary.q (x1 (ix2 q k)) (x2 (ix2 q (0 : Fin 1))) := by
  unfold k0_pay1
  refine (Ideal.matmul_constant_zero_apply dot_S2048x2048_S256x2048_S2048x256_1_1_0_0_n_n none _ _ (ix2 p q)).trans ?_
  rw [← Equiv.sum_comp (contrEquiv1 dot_S2048x2048_S256x2048_S2048x256_1_1_0_0_n_n 2048 rfl rfl).symm]
  refine Finset.sum_congr rfl fun k _ => ?_
  have hk := contrEquiv1_symm_val dot_S2048x2048_S256x2048_S2048x256_1_1_0_0_n_n 2048 rfl rfl k
  have el : dot_S2048x2048_S256x2048_S2048x256_1_1_0_0_n_n.lhsIdx (ix2 p q) ((contrEquiv1 dot_S2048x2048_S256x2048_S2048x256_1_1_0_0_n_n 2048 rfl rfl).symm k) = ix2 p k := funext fun a => Fin.ext (by
    match a with
    | ⟨0, _⟩ => exact lhs_row _ _
    | ⟨1, _⟩ => exact (lhs_contr _ _).trans hk)
  have er : dot_S2048x2048_S256x2048_S2048x256_1_1_0_0_n_n.rhsIdx (ix2 p q) ((contrEquiv1 dot_S2048x2048_S256x2048_S2048x256_1_1_0_0_n_n 2048 rfl rfl).symm k) = ix2 q k := funext fun a => Fin.ext (by
    match a with
    | ⟨0, _⟩ => exact rhs_row _ _
    | ⟨1, _⟩ => exact (rhs_contr _ _).trans hk)
  rw [el, er, shapeCast_self, shapeCast_self]
  refine congrArg (x0 (ix2 p k) * ·) ?_
  have hb : broadcastTo S256x2048 x2 broadcasts_S256x1_S256x2048 (ix2 q k) = x2 (ix2 q (0 : Fin 1)) :=
    Cert.LibKeepdims.bcast_col x2 _ q k
  rw [← hb]
  rfl

end Cert.KernelIdeal.BodyValue

end
-- ==== Proof.Blocks.lean ====
/-
  From the blocks the grid points write to the whole output array.

  The grid has 4 by 32 points. At point (i, j) the body sees rows 2048 i .. 2048 i + 2047 of the activations (all 2048
  columns), rows 256 j .. 256 j + 255 of the weights and of the scales, and writes the block of the output at rows
  2048 i .., columns 256 j ... Entry (p, q) of that block is the inner product of activation row 2048 i + p with the
  quantized weight row 256 j + q, which is entry (2048 i + p, 256 j + q) of ONE function of the three whole arrays. The
  blocks tile the 8192 by 8192 output (row r lies in block row r / 2048, column n in block column n / 256), so after the
  run the array holds that function everywhere.
-/
import proofs.«104891_j9526237462629_1_alg».proof.Proof.Gen.KernelIdeal.Frame
import proofs.«104891_j9526237462629_1_alg».proof.Proof.BodyValue
import Idealize.ShloMosaic.Lib.Pipeline.Value
import Idealize.ShloMosaic.PureOps.Ideal

set_option maxRecDepth 16384

noncomputable section

open scoped BigOperators

namespace Cert.KernelIdeal.Blocks

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ)

theorem origin : (![0, 0] : Fin 2 → Nat) = fun _ => 0 := funext fun a => by fin_cases a <;> rfl

/-- The printed index maps over the grid: the activations' block row is the output's block row, the weights' and the
    scales' block row is the output's block column, none of the three moves along its second axis, and the output's
    block indices stay in 0..3 and 0..31. -/
theorem index_facts : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = win0_3.index t (1 : Fin 2) ∧ win0_2.index t (1 : Fin 2) = 0
    ∧ win0_3.index t (0 : Fin 2) ≤ 3 ∧ win0_3.index t (1 : Fin 2) ≤ 31 :=
  (by decide +kernel : ∀ t : Fin grid0.N, _)

/-- Every block of the output is some point's. -/
theorem index_onto : ∀ (q0 : Fin 4) (q1 : Fin 32), ∃ t : Fin cfg0.N, win0_3.index t = ![q0.val, q1.val] :=
  (by decide +kernel : ∀ (q0 : Fin 4) (q1 : Fin 32), ∃ t : Fin grid0.N, win0_3.index t = ![q0.val, q1.val])

/-- What point t writes back is block t of the flat result of the three arrays as the region finds them. -/
theorem flushed_eq (c : Dev nD) (t : Fin cfg0.N) :
    (dats m 0 c).flushed 3 t
      = ((cfg0.win 3).blk t).view.read (Elt Ideal) (Ternary.flat (V m c main_v7) (V m c main_arg1) (V m c main_v5)) := by
  show (cfg0.win 3).cut (grid0.coords t) ((dats m 0 c).after 3 t) = _
  rw [after0_3]
  unfold out0_3
  rw [View.canon_unit_zero origin]
  simp only [View.ld_unit_zero (S := S2048x2048) origin, View.ld_unit_zero (S := S256x2048) origin,
    View.ld_unit_zero (S := S256x1) origin]
  obtain ⟨e0, e1, e2, e3, e4, e5, -, -⟩ := index_facts t
  funext j
  obtain ⟨p, q, rfl⟩ : ∃ (p : Fin 2048) (q : Fin 256), j = ix2 p q := ⟨j 0, j 1, eq_ix2 j⟩
  show k0_pay1 (F := Ideal) (iblk m c 0 t) (iblk m c 1 t) (iblk m c 2 t) (ix2 p q)
    = Ternary.flat (V m c main_v7) (V m c main_arg1) (V m c main_v5) (((cfg0.win 3).blk t).view.emb (ix2 p q))
  refine (BodyValue.pay_apply (iblk m c 0 t) (iblk m c 1 t) (iblk m c 2 t) p q).trans ?_
  unfold Ternary.flat
  refine Finset.sum_congr rfl fun k _ => ?_
  have hx : iblk m c 0 t (ix2 p k) = V m c main_v7 (ix2 ((((cfg0.win 3).blk t).view.emb (ix2 p q)) 0) k) := by
    show V m c main_v7 (((cfg0.win 0).blk t).view.emb (ix2 p k)) = _
    refine congrArg (V m c main_v7) (funext fun a => Fin.ext ?_)
    match a with
    | ⟨0, _⟩ => show win0_0.index t (0 : Fin 2) * 2048 + 1 * p.val = win0_3.index t (0 : Fin 2) * 2048 + 1 * p.val; omega
    | ⟨1, _⟩ => show win0_0.index t (1 : Fin 2) * 2048 + 1 * k.val = k.val; omega
  have hw : iblk m c 1 t (ix2 q k) = V m c main_arg1 (ix2 ((((cfg0.win 3).blk t).view.emb (ix2 p q)) 1) k) := by
    show V m c main_arg1 (((cfg0.win 1).blk t).view.emb (ix2 q k)) = _
    refine congrArg (V m c main_arg1) (funext fun a => Fin.ext ?_)
    match a with
    | ⟨0, _⟩ => show win0_1.index t (0 : Fin 2) * 256 + 1 * q.val = win0_3.index t (1 : Fin 2) * 256 + 1 * q.val; omega
    | ⟨1, _⟩ => show win0_1.index t (1 : Fin 2) * 2048 + 1 * k.val = k.val; omega
  have hs : iblk m c 2 t (ix2 q (0 : Fin 1)) = V m c main_v5 (ix2 ((((cfg0.win 3).blk t).view.emb (ix2 p q)) 1) (0 : Fin 1)) := by
    show V m c main_v5 (((cfg0.win 2).blk t).view.emb (ix2 q (0 : Fin 1))) = _
    refine congrArg (V m c main_v5) (funext fun a => Fin.ext ?_)
    match a with
    | ⟨0, _⟩ => show win0_2.index t (0 : Fin 2) * 256 + 1 * q.val = win0_3.index t (1 : Fin 2) * 256 + 1 * q.val; omega
    | ⟨1, _⟩ => show win0_2.index t (1 : Fin 2) * 1 + 1 * 0 = 0; omega
  rw [hx, hw, hs]

/-- An index of the output lies in point t's block iff each coordinate lies in the block's range on its axis. -/
theorem mem_block (t : Fin cfg0.N) (i : S8192x8192.Idx) :
    i ∈ ((cfg0.win 3).blk t).view.set ↔ ∀ a : Fin 2, win0_3.index t a * S2048x256.size a ≤ (i a).val
      ∧ (i a).val < win0_3.index t a * S2048x256.size a + S2048x256.size a := by
  show i ∈ ((View.whole main_v8).slice (win0_3.rect t)).set ↔ _
  rw [View.set_slice_whole, Rect.mem_set_unit]
  exact Iff.rfl

/-- The output array after the run: the flat result of the three arrays as the region finds them. -/
theorem final (c : Dev nD) :
    (dats m 0 c).arrAt 3 cfg0.N = Ternary.flat (V m c main_v7) (V m c main_arg1) (V m c main_v5) :=
  (dats m 0 c).arrAt_eq_of_cover 3 _ (fun t _ => flushed_eq m c t) fun i => by
    have hi0 : (i 0).val < 8192 := (i 0).isLt
    have hi1 : (i 1).val < 8192 := (i 1).isLt
    obtain ⟨t, ht⟩ := index_onto ⟨(i 0).val / 2048, by omega⟩ ⟨(i 1).val / 256, by omega⟩
    have q0 : win0_3.index t (0 : Fin 2) = (i 0).val / 2048 := congrFun ht 0
    have q1 : win0_3.index t (1 : Fin 2) = (i 1).val / 256 := congrFun ht 1
    refine ⟨t, flush0_3 t, ?_⟩
    rw [mem_block]
    intro a
    match a with
    | ⟨0, _⟩ =>
      show win0_3.index t (0 : Fin 2) * 2048 ≤ (i 0).val ∧ (i 0).val < win0_3.index t (0 : Fin 2) * 2048 + 2048
      omega
    | ⟨1, _⟩ =>
      show win0_3.index t (1 : Fin 2) * 256 ≤ (i 1).val ∧ (i 1).val < win0_3.index t (1 : Fin 2) * 256 + 256
      omega

end Cert.KernelIdeal.Blocks

end
-- ==== Proof.Reshape.lean ====
/-
  The two reshapes around the matrix product, read at an index.

  Activations [4, 2048, 2048] are viewed as [8192, 2048] and the product [8192, 8192] is viewed back as [4, 2048, 8192]:
  both only merge or split the two leading axes, so row 2048 b + r of the flat view is the pair (b, r) and the last
  coordinate is untouched (the row-major position is the same on both sides).
-/
import proofs.«104891_j9526237462629_1_alg».proof.Proof.Ternary
import Idealize.ShloMosaic.Lib.ValueLayout
import Idealize.ShloMosaic.Lib.Pipeline.Value
import Idealize.ShloMosaic.Lib.ValueIdx

noncomputable section

namespace Cert.Ternary

open Idealize.ShloMosaic Idealize.ShloMosaic.ValueIdx

variable {α : Type}

/-- The flat row of the pair (b, r). -/
theorem flat_row_lt (b : Fin 4) (r : Fin 2048) : b.val * 2048 + r.val < 8192 := by
  have := b.isLt; have := r.isLt; omega

/-- [4, 2048, 2048] viewed as [8192, 2048]: entry (2048 b + r, k) of the view is entry (b, r, k). -/
theorem merge_rows (x : (⟨3, ![4, 2048, 2048]⟩ : Shape).Idx → α)
    (h : (⟨3, ![4, 2048, 2048]⟩ : Shape).ShapeCasts ⟨2, ![8192, 2048]⟩) (b : Fin 4) (r : Fin 2048) (k : Fin 2048) :
    shapeCast ⟨2, ![8192, 2048]⟩ x h (ix2 ⟨b.val * 2048 + r.val, flat_row_lt b r⟩ k) = x (ix3 b r k) :=
  shapeCast_apply x h _ _ (by
    rw [Shape.rowMajor_val_three, Shape.rowMajor_val_two]
    show (b.val * 2048 + r.val) * 2048 + k.val = (b.val * 2048 + r.val) * 2048 + k.val
    rfl)

/-- [8192, 8192] viewed as [4, 2048, 8192]: entry (b, r, n) of the view is entry (2048 b + r, n). -/
theorem split_rows (y : (⟨2, ![8192, 8192]⟩ : Shape).Idx → α)
    (h : (⟨2, ![8192, 8192]⟩ : Shape).ShapeCasts ⟨3, ![4, 2048, 8192]⟩) (b : Fin 4) (r : Fin 2048) (n : Fin 8192) :
    shapeCast ⟨3, ![4, 2048, 8192]⟩ y h (ix3 b r n) = y (ix2 ⟨b.val * 2048 + r.val, flat_row_lt b r⟩ n) :=
  shapeCast_apply y h _ _ (by
    rw [Shape.rowMajor_val_three, Shape.rowMajor_val_two]
    show (b.val * 2048 + r.val) * 8192 + n.val = (b.val * 2048 + r.val) * 8192 + n.val
    rfl)

open scoped BigOperators in
/-- The flat output viewed as [4, 2048, 8192] is the layer's output, when flat activation row 2048 b + r is the pair
    (b, r). -/
theorem split_flat (x : (⟨3, ![4, 2048, 2048]⟩ : Shape).Idx → EReal) (X w : (⟨2, ![8192, 2048]⟩ : Shape).Idx → EReal)
    (s : (⟨2, ![8192, 1]⟩ : Shape).Idx → EReal)
    (hX : ∀ (b : Fin 4) (r : Fin 2048) (k : Fin 2048), X (ix2 ⟨b.val * 2048 + r.val, flat_row_lt b r⟩ k) = x (ix3 b r k))
    (h : (⟨2, ![8192, 8192]⟩ : Shape).ShapeCasts ⟨3, ![4, 2048, 8192]⟩) :
    shapeCast ⟨3, ![4, 2048, 8192]⟩ (flat X w s) h = out x w s := by
  funext i
  obtain ⟨b, r, n, rfl⟩ : ∃ (b : Fin 4) (r : Fin 2048) (n : Fin 8192), i = ix3 b r n := ⟨i 0, i 1, i 2, eq_ix3 i⟩
  rw [split_rows, flat_apply, out_apply]
  exact Finset.sum_congr rfl fun k _ => by rw [hX]

end Cert.Ternary

end
-- ==== Proof.KernelRun.lean ====
/-
  The kernel program's run, with its result named.

  Before the grid runs, the host merges the activations' two leading axes (and narrows their format, which changes
  nothing over the extended reals) and computes each weight row's scale; after it, the host splits the output's rows
  back into two axes. So the result at (b, r, n) is the flat result at (2048 b + r, n), whose activation row
  2048 b + r is the pair (b, r): the layer's output of the activations, the weights and the weights' scales.
  The scale is the same composition of host operations in both programs; it is named once and never opened.
-/
import proofs.«104891_j9526237462629_1_alg».proof.Proof.Blocks
import proofs.«104891_j9526237462629_1_alg».proof.Proof.Reshape
import proofs.«104891_j9526237462629_1_alg».proof.Proof.Gen.ReferenceIdeal.Read
import Idealize.ShloMosaic.Lib.StableHlo.Run

set_option maxRecDepth 16384

noncomputable section

open scoped BigOperators

namespace Cert.KernelIdeal.KernelRun

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-- The activations as the grid finds them: the argument with its leading axes merged (and narrowed). -/
theorem x_entry (c : Dev nD) :
    (V m c main_v7 : S8192x2048.Idx → EReal)
      = truncf (F := Ideal) .bf16 (shapeCast S8192x2048 (m ((c : Thread nD τ).loc main_arg0)) shapeCasts_S4x2048x2048_S8192x2048) bitsLt_bf16_f32 := by
  dsimp only [V, V0]
  simp only [hostOps0, hostOps0_1, hostOps0_2, List.flatten_cons, List.flatten_nil, List.append_nil, List.cons_append,
    List.nil_append]
  after_results
  rfl

/-- The scales as the grid finds them: the reference's own scale of the weights. -/
theorem scale_entry (c : Dev nD) :
    (V m c main_v5 : S8192x1.Idx → EReal)
      = Cert.ReferenceIdeal.Read.val_main_v5 (F := Ideal) (m ((c : Thread nD τ).loc main_arg1)) := by
  dsimp only [V, V0]
  simp only [hostOps0, hostOps0_1, hostOps0_2, List.flatten_cons, List.flatten_nil, List.append_nil, List.cons_append,
    List.nil_append]
  after_results
  rfl

/-- Activation row 2048 b + r of the merged array is the pair (b, r). -/
theorem x_row (c : Dev nD) (b : Fin 4) (r : Fin 2048) (k : Fin 2048) :
    (V m c main_v7 : S8192x2048.Idx → EReal) (ix2 ⟨b.val * 2048 + r.val, Ternary.flat_row_lt b r⟩ k)
      = m ((c : Thread nD τ).loc main_arg0) (ix3 b r k) :=
  (congrFun (x_entry m c) _).trans (Ternary.merge_rows _ _ b r k)

/-- What the host's last line leaves in the result: the layer's output. -/
theorem result_eq (c : Dev nD) :
    Pipeline.afterTail₀ cfgs (dats m) 0 (V0 m) [hostOps1] c main_v9
      = Ternary.out (m ((c : Thread nD τ).loc main_arg0)) (m ((c : Thread nD τ).loc main_arg1)) (V m c main_v5) := by
  unfold Pipeline.afterTail₀
  show StableHlo.after hostOps1 _ (Proc.devRef .tc main_v9) = _
  after_results
  show shapeCast S4x2048x8192 (Pipeline.withArrays (cfgs 0).spec c (V0 m c) (fun w => (dats m 0 c).arrAt w (cfgs 0).N)
      (Proc.devRef .tc main_v8)) shapeCasts_S8192x8192_S4x2048x8192 = _
  have harr : Pipeline.withArrays (cfgs 0).spec c (V0 m c) (fun w => (dats m 0 c).arrAt w (cfgs 0).N) (Proc.devRef .tc main_v8)
      = Ternary.flat (V m c main_v7) (V m c main_arg1) (V m c main_v5) :=
    (Pipeline.withArrays_arr spec0 launch0.win.arr_inj c _ _ 3).trans (Blocks.final m c)
  rw [harr, V_main_arg1]
  exact Ternary.split_flat _ _ _ _ (x_row m c) _

/-- Every weakly fair execution of the kernel program ends with the result at the layer's output of its arguments (the
    scale being the reference's scale of the weights) and the arguments unchanged. -/
theorem run : θ_run defs (onTc (τ := τ) (main (F := Ideal))) ⟨m, fun _ => 0, ρ⟩ fun r => ∀ c : Dev nD,
      r.2.mem ((c : Thread nD τ).loc main_v9)
        = Ternary.out (m ((c : Thread nD τ).loc main_arg0)) (m ((c : Thread nD τ).loc main_arg1))
            (Cert.ReferenceIdeal.Read.val_main_v5 (F := Ideal) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v9 (Pipeline.mem_restRefs_of main_v9 (by decide) (by decide))).trans
          ((result_eq m c).trans (congrArg (Ternary.out _ _) (scale_entry m c))),
        ((h c).2 main_arg0 (Pipeline.mem_restRefs_of main_arg0 (by decide) (by decide))).trans (W_main_arg0 m (dats m) c),
        ((h c).1 1).trans (((dats m 0 c).arrAt_in 1 rfl _).trans ((A_eq m c 1).trans (V_main_arg1 m c)))⟩)
    (run_main m ρ)

end Cert.KernelIdeal.KernelRun

end
-- ==== Proof.RefValue.lean ====
/-
  The reference, read at an index.

  The reference forms, for every weight entry w with its row's scale s, the value w + (q(w, s) - w), and contracts the
  activations with that matrix over their last axis. For a finite w the value is q(w, s) itself, so the result at
  (b, r, n) is the sum over k of x(b, r, k) * q(w(n, k), s(n, 0)): the layer's output, with s the scale the reference
  computes from the weights.
-/
import proofs.«104891_j9526237462629_1_alg».proof.Proof.Gen.ReferenceIdeal.Read
import proofs.«104891_j9526237462629_1_alg».proof.Proof.Ternary

noncomputable section

open scoped BigOperators

namespace Cert.ReferenceIdeal.RefValue

open Cert.ReferenceIdeal Cert.ReferenceIdeal.Gen Cert.ReferenceIdeal.Read Idealize.ShloMosaic Idealize.ShloMosaic.ValueIdx

/-- The matrix the reference contracts with, at a finite weight entry: the quantized entry against its row's scale. -/
theorem straight_through (x1 : (⟨S8192x2048, .f32⟩ : BufTy).Contents (Elt Ideal)) (j : S8192x2048.Idx)
    (hb : x1 j ≠ ⊥) (ht : x1 j ≠ ⊤) :
    val_main_v13 (F := Ideal) x1 j = Ternary.q (x1 j) (val_main_v5 (F := Ideal) x1 (idx_main_v6 j)) := by
  rw [val_main_v13_apply, val_main_v12_apply, val_main_v11_apply, val_main_v9_apply, val_main_call2_v4_apply,
    val_main_call2_v3_apply, val_main_cst_3_apply, val_main_call2_v2_apply, val_main_call2_v1_apply,
    val_main_call2_v0_apply, val_main_cst_2_apply, val_main_v8_apply, val_main_v7_apply, val_main_v6_apply,
    val_main_v10_apply]
  show x1 j + (_ - x1 j) = _
  rw [Ternary.add_sub_cancel_of_finite hb ht]
  rfl

/-- The reference's result is the layer's output of the activations, the weights and the weights' scales. -/
theorem result_eq (x0 : (⟨S4x2048x2048, .f32⟩ : BufTy).Contents (Elt Ideal)) (x1 : (⟨S8192x2048, .f32⟩ : BufTy).Contents (Elt Ideal))
    (hfin : ∀ j : S8192x2048.Idx, x1 j ≠ ⊥ ∧ x1 j ≠ ⊤) :
    val_main_v14 (F := Ideal) x0 x1 = Ternary.out x0 x1 (val_main_v5 (F := Ideal) x1) := by
  funext i
  obtain ⟨b, r, n, rfl⟩ : ∃ (b : Fin 4) (r : Fin 2048) (n : Fin 8192), i = ix3 b r n := ⟨i 0, i 1, i 2, eq_ix3 i⟩
  rw [val_main_v14_apply, Ternary.out_apply]
  refine Finset.sum_congr rfl fun k _ => ?_
  have el : lidx_main_v14 (ix3 b r n) k = ix3 b r k :=
    funext fun a => Fin.ext (by match a with | ⟨0, _⟩ => rfl | ⟨1, _⟩ => rfl | ⟨2, _⟩ => rfl)
  have er : ridx_main_v14 (ix3 b r n) k = ix2 n k :=
    funext fun a => Fin.ext (by match a with | ⟨0, _⟩ => rfl | ⟨1, _⟩ => rfl)
  have es : idx_main_v6 (ix2 n k) = ix2 n (0 : Fin 1) :=
    funext fun a => Fin.ext (by match a with | ⟨0, _⟩ => rfl | ⟨1, _⟩ => rfl)
  rw [el, er, straight_through x1 _ (hfin _).1 (hfin _).2, es]

end Cert.ReferenceIdeal.RefValue

end
-- ==== Proof.Finite.lean ====
/-
  The precondition, opened for the weights: every weight entry is a real number.

  The precondition is the conjunction of two tests, one per input: the minimum over all entries of (|entry| < +∞). If
  the conjunction is 1 then the second test is 1, so the comparison is 1 at every weight entry, and an extended real
  whose absolute value is below +∞ is neither infinity.
-/
import proofs.«104891_j9526237462629_1_alg».proof.Pre_finite_inputs
import proofs.«104891_j9526237462629_1_alg».proof.Proof.Gen.Pre_finite_inputs
import Idealize.ShloMosaic.Lib.ReduceAll
import Idealize.ShloMosaic.Lib.Affine
import Idealize.ShloMosaic.Lib.ValueIdx
import Idealize.ShloMosaic.PureOps.Ideal

noncomputable section

namespace Cert.Pre_finite_inputs.Finite

open Idealize.ShloMosaic Cert.Pre_finite_inputs

instance : Subsingleton S_.Idx := ⟨fun a b => funext fun d => d.elim0⟩

/-- Under the precondition every weight entry is neither infinity. -/
theorem weight_finite (x0 : FVec Ideal S4x2048x2048 .f32) (x1 : FVec Ideal S8192x2048 .f32)
    (h : fn (F := Ideal) x0 x1 = fun _ => 1#1) (j : S8192x2048.Idx) : x1 j ≠ ⊥ ∧ x1 j ≠ ⊤ := by
  have h0 := congrFun h ValueIdx.ix0
  dsimp only [fn] at h0
  have h1 := (IntOp.andi_eq_one.mp h0).2
  have h2 := Host.reduce_andi_all _ _ _ _ _ h1 j
  have htop : Ideal.ofBits .f32 0x7F800000#32 = ⊤ := by simp [Ideal.ofBits, Ideal.ieee]
  have h3 : BitVec.ofBool (decide (max (x1 j : EReal) (-(x1 j : EReal)) < Ideal.ofBits .f32 0x7F800000#32)) = 1#1 := h2
  rw [htop] at h3
  have hlt : max (x1 j : EReal) (-(x1 j : EReal)) < ⊤ := by
    by_contra hn
    rw [decide_eq_false hn] at h3
    exact absurd h3 (by decide)
  rw [max_lt_iff] at hlt
  refine ⟨fun hb => ?_, ne_of_lt hlt.1⟩
  have hneg := hlt.2
  rw [hb, EReal.neg_bot] at hneg
  exact lt_irrefl _ hneg

end Cert.Pre_finite_inputs.Finite

end
-- ==== Proof.lean ====
/-
  A ternary-weight linear layer: the kernel program, its idealization and the reference compute the same output.

  Each weight row has a scale s, the mean of the row's absolute values clamped below at a small positive constant. A
  weight entry w is quantized to q(w, s) = clamp(round(w / s), -1, 1) * s, and the output at (b, r, n) is the inner
  product over k of the activation x(b, r, k) with q(w(n, k), s(n)).

  The kernel program computes the scales on the host, merges the activations' leading axes, and on a grid of 4 by 32
  points multiplies a block of activations by the transpose of a block of quantized weights into a block of the output,
  which the host then splits back into three axes. Over the extended reals the narrowing of float formats is the
  identity and a matrix product into a zero accumulator is the plain sum, so the blocks tile the output with the inner
  products above.

  The reference forms w + (q(w, s) - w) for every weight entry and contracts the activations with that matrix. On the
  extended reals a + (b - a) = b holds for every real a and fails at the infinities, so this is where the precondition
  is used: every weight entry is finite, hence the matrix is q(w, s) entry by entry and the two results are the same
  sums. The activations' finiteness is not needed.

  The three frame claims are the generated frames (the reference's is its run with the result dropped); nothing was
  rewritten by the idealization, so the preservation claim is trivial.
-/
import proofs.«104891_j9526237462629_1_alg».proof.Defs
import proofs.«104891_j9526237462629_1_alg».proof.Proof.Gen.Kernel
import proofs.«104891_j9526237462629_1_alg».proof.Proof.Gen.Kernel.Skeleton
import proofs.«104891_j9526237462629_1_alg».proof.Proof.Gen.Kernel.Launch
import proofs.«104891_j9526237462629_1_alg».proof.Proof.Gen.Kernel.Points
import proofs.«104891_j9526237462629_1_alg».proof.Proof.Gen.Kernel.Frame
import proofs.«104891_j9526237462629_1_alg».proof.Proof.Gen.KernelIdeal
import proofs.«104891_j9526237462629_1_alg».proof.Proof.Gen.KernelIdeal.Skeleton
import proofs.«104891_j9526237462629_1_alg».proof.Proof.Gen.KernelIdeal.Launch
import proofs.«104891_j9526237462629_1_alg».proof.Proof.Gen.KernelIdeal.Points
import proofs.«104891_j9526237462629_1_alg».proof.Proof.Gen.KernelIdeal.Frame
import proofs.«104891_j9526237462629_1_alg».proof.Proof.Gen.ReferenceIdeal
import proofs.«104891_j9526237462629_1_alg».proof.Proof.Gen.Pre_finite_inputs
import proofs.«104891_j9526237462629_1_alg».proof.Proof.Gen.ReferenceIdeal.Run
import proofs.«104891_j9526237462629_1_alg».proof.Proof.Gen.ReferenceIdeal.Read
import proofs.«104891_j9526237462629_1_alg».proof.Proof.KernelRun
import proofs.«104891_j9526237462629_1_alg».proof.Proof.RefValue
import proofs.«104891_j9526237462629_1_alg».proof.Proof.Finite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no grid: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten by the idealization. -/
theorem preserves : Cert.preserves_Kernel_KernelIdeal := trivial

/-- Both programs end with the layer's output of the shared arguments: the kernel program by its run, the reference by
    its run read at an index, where the weights' finiteness turns w + (q - w) into q. -/
theorem algebraic : Cert.algebraic_KernelIdeal_ReferenceIdeal := by
  intro m ρ m' ρ' hpre hagree
  refine ⟨_, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, (hagree c).1, (hagree c).2]
  exact Cert.ReferenceIdeal.RefValue.result_eq _ _ (fun j => Cert.Pre_finite_inputs.Finite.weight_finite _ _ (hpre c) j)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
